-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 35
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S50000x1, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S_, .f32⟩
  | .hbm, ⟨27, _⟩ => ⟨S50000x64, .f32⟩
  | .hbm, ⟨28, _⟩ => ⟨S800000x1, .i32⟩
  | .hbm, ⟨29, _⟩ => ⟨S50000x64, .f32⟩
  | .hbm, ⟨30, _⟩ => ⟨S64x64, .f32⟩
  | .hbm, ⟨31, _⟩ => ⟨S64x64, .f32⟩
  | .hbm, ⟨32, _⟩ => ⟨S1x64, .f32⟩
  | .hbm, ⟨33, _⟩ => ⟨S1x64, .f32⟩
  | .hbm, ⟨34, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  transposes_S64x64_S64x64_1_0 : S64x64.Transposes [1, 0] S64x64
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩

abbrev nBuf : Space → Nat
  | .hbm => 46
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .f32⟩
  | .hbm, ⟨29, _⟩ => ⟨S50000x64, .f32⟩
  | .hbm, ⟨30, _⟩ => ⟨S800000x1, .i32⟩
  | .hbm, ⟨31, _⟩ => ⟨S50000x64, .f32⟩
  | .hbm, ⟨32, _⟩ => ⟨S50000x1, .f32⟩
  | .hbm, ⟨33, _⟩ => ⟨S50000x64, .f32⟩
  | .hbm, ⟨34, _⟩ => ⟨S50000x64, .f32⟩
  | .hbm, ⟨35, _⟩ => ⟨S64x64, .f32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S50000x64, .f32⟩
  | .hbm, ⟨40, _⟩ => ⟨S64x64, .f32⟩
  | .hbm, ⟨41, _⟩ => ⟨S50000x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.SageSpec.lean ====
/-
  The layer as ONE function of its arrays, index by index, on the extended reals.

  A node `p` has a feature row `x p`, an aggregated neighbour row `agg p` (the sum of the rows of the
  sources of its incoming edges) and an in-degree `deg p`. Its output at column `q` is

      ((Σ k, x p k · Ws q k  +  bs q)  +  Σ k, (agg p k / max (deg p) 1) · Wn q k)  +  bn q

  with the three additions grouped exactly so. The two weight matrices enter through their transposes
  (`Ws q k` is entry (k, q) of the transposed matrix), which is how both programs read them.
-/
import Idealize.ShloMosaic.PureOps.Ideal
import Idealize.ShloMosaic.Lib.ValueIdx

noncomputable section

namespace Sage

open Idealize.ShloMosaic Idealize.ShloMosaic.ValueIdx

/-- The shapes of the layer: node features, the in-degree column, a weight matrix, a bias row. -/
abbrev NodeFeat : Shape := ⟨2, ![50000, 64]⟩
abbrev NodeVec : Shape := ⟨1, ![50000]⟩
abbrev Weight : Shape := ⟨2, ![64, 64]⟩
abbrev Bias : Shape := ⟨1, ![64]⟩

/-- The float pattern of `1.0`, the floor of the degree; it is never evaluated, both programs carry the same word. -/
abbrev one : EReal := Ideal.ofBits .f32 0x3F800000#32

/-- The mean-normalised neighbour feature of node `p` at column `k`: the aggregated sum over the degree floored at one. -/
def meanNeigh (agg : FVec Ideal NodeFeat .f32) (deg : FVec Ideal NodeVec .f32) (p : Fin 50000) (k : Fin 64) : EReal :=
  Ideal.div (agg (ix2 p k)) (max (deg (ix1 p)) one)

/-- The layer's output at node `p`, column `q`. -/
def outAt (x agg : FVec Ideal NodeFeat .f32) (deg : FVec Ideal NodeVec .f32)
    (Ws : FVec Ideal Weight .f32) (bs : FVec Ideal Bias .f32) (Wn : FVec Ideal Weight .f32) (bn : FVec Ideal Bias .f32)
    (p : Fin 50000) (q : Fin 64) : EReal :=
  ((∑ k : Fin 64, x (ix2 p k) * Ws (ix2 q k) + bs (ix1 q))
    + ∑ k : Fin 64, meanNeigh agg deg p k * Wn (ix2 q k)) + bn (ix1 q)

/-- The layer's output array. -/
def out (x agg : FVec Ideal NodeFeat .f32) (deg : FVec Ideal NodeVec .f32)
    (Ws : FVec Ideal Weight .f32) (bs : FVec Ideal Bias .f32) (Wn : FVec Ideal Weight .f32) (bn : FVec Ideal Bias .f32) :
    FVec Ideal NodeFeat .f32 :=
  fun i => outAt x agg deg Ws bs Wn bn (i 0) (i 1)

end Sage

end
-- ==== Proof.KernelBody.lean ====
/-
  The kernel body's arithmetic on one block of 5000 nodes, read at an entry.

  The body takes the block's feature rows `x`, aggregated rows `agg` and degree column `deg`, the two transposed
  weight matrices `wsT`, `wnT` and the two bias rows, and stores

      ((x · wsT + bs) + (agg / max deg 1) · wnT) + bn .

  At row `p`, column `q` of the block that is
      ((Σ k, x p k · wsT k q + bs q) + Σ k, (agg p k / max (deg p) 1) · wnT k q) + bn q :
  a product of a 5000×64 block with a 64×64 matrix into a zero accumulator is, at (p, q), the sum over the 64
  contracted columns; the degree column and the bias rows are broadcast along their unit axis.
-/
import proofs.«403593_j73074573574435_3_alg».proof.Proof.Gen.KernelIdeal.Skeleton
import proofs.«403593_j73074573574435_3_alg».proof.Proof.SageSpec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-! ## The product's operand indices, axis by axis -/

/-- The left operand is read at the output's row … -/
theorem dot_lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contracted column; -/
theorem dot_lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contracted row … -/
theorem dot_rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and the output's column. -/
theorem dot_rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block times a 64×64 matrix, accumulated into zero, at (p, q): the sum over the contracted index of the
    block's row `p` against the matrix's column `q`. -/
theorem matmul_at (l : FVec Ideal S5000x64 .f32) (r : FVec Ideal S64x64 .f32) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact dot_lhs_row _ _
    | ⟨1, _⟩ => exact (dot_lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_rhs_row _ _).trans hk
    | ⟨1, _⟩ => exact dot_rhs_col _ _)
  rw [el, er]

/-! ## The broadcasts along a unit axis -/

/-- The degree column spread over the 64 columns: entry (p, q) is the column's entry p. -/
theorem bcast_col_at (d : FVec Ideal S5000x1 .f32) (p : Fin 5000) (q : Fin 64) :
    broadcastTo S5000x64 d broadcasts_S5000x1_S5000x64 (ix2 p q) = d (ix2 p 0) :=
  broadcastTo_apply d broadcasts_S5000x1_S5000x64 (ix2 p q) (ix2 p 0) (fun a => match a with
    | ⟨0, _⟩ => by show p.val = if (5000 : Nat) = 1 then 0 else p.val; rw [if_neg (by decide)]
    | ⟨1, _⟩ => by show 0 = if (1 : Nat) = 1 then 0 else q.val; rw [if_pos rfl])

/-- A bias row spread over the 5000 rows: entry (p, q) is the row's entry q. -/
theorem bcast_row_at (b : FVec Ideal S1x64 .f32) (p : Fin 5000) (q : Fin 64) :
    broadcastTo S5000x64 b broadcasts_S1x64_S5000x64 (ix2 p q) = b (ix2 0 q) :=
  broadcastTo_apply b broadcasts_S1x64_S5000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-! ## The stored value at an entry -/

/-- What the body stores, at row `p` and column `q` of the block, from the seven blocks it loads. -/
theorem stored_at (deg : Vec Ideal S5000x1 .f32) (agg x : Vec Ideal S5000x64 .f32) (wsT : Vec Ideal S64x64 .f32)
    (bs : Vec Ideal S1x64 .f32) (wnT : Vec Ideal S64x64 .f32) (bn : Vec Ideal S1x64 .f32) (p : Fin 5000) (q : Fin 64) :
    k0_pay1 (F := Ideal) deg agg x wsT bs wnT bn (ix2 p q)
      = ((∑ k : Fin 64, x (ix2 p k) * wsT (ix2 k q) + bs (ix2 0 q))
          + ∑ k : Fin 64, Ideal.div (agg (ix2 p k)) (max (deg (ix2 p 0)) Sage.one) * wnT (ix2 k q)) + bn (ix2 0 q) := by
  unfold k0_pay1
  simp only [shapeCast_self]
  show ((matmul dot_S5000x64_S64x64_S5000x64_1_0_0_1_n_n none x wsT (constant (F := Ideal) S5000x64 .f32 0x00000000#32) (ix2 p q)
        + broadcastTo S5000x64 bs broadcasts_S1x64_S5000x64 (ix2 p q))
      + matmul dot_S5000x64_S64x64_S5000x64_1_0_0_1_n_n none (divf agg (broadcastTo S5000x64 (maximumf deg (broadcast S5000x1 (Scalar.ofBits (F := Ideal) .f32 0x3F800000#32))) broadcasts_S5000x1_S5000x64)) wnT (constant (F := Ideal) S5000x64 .f32 0x00000000#32) (ix2 p q))
      + broadcastTo S5000x64 bn broadcasts_S1x64_S5000x64 (ix2 p q) = _
  rw [matmul_at, matmul_at, bcast_row_at, bcast_row_at]
  refine congrArg (· + bn (ix2 0 q)) (congrArg (_ + ·) (Finset.sum_congr rfl fun k _ => ?_))
  refine congrArg (· * wnT (ix2 k q)) ?_
  show Ideal.div (agg (ix2 p k)) (broadcastTo S5000x64 (maximumf deg (broadcast S5000x1 (Scalar.ofBits (F := Ideal) .f32 0x3F800000#32))) broadcasts_S5000x1_S5000x64 (ix2 p k)) = _
  rw [bcast_col_at]
  rfl

end Cert.KernelIdeal.Body

end
-- ==== Proof.SageHost.lean ====
/-
  The two quantities both programs compute from the edge list before any arithmetic on features.

  An edge `j` goes from source `col j` to destination `row j` (the two rows of the edge list). The in-degree of
  a node counts the edges that arrive at it; its neighbour sum adds up the feature rows of the sources of those
  edges (a source index below zero is read from the end, as array indexing does). Both programs obtain them by
  the same chain of host operations — a gather of the source rows and a scatter-add into the destination rows —
  so they are carried here as two functions of the inputs and never opened.
-/
import proofs.«403593_j73074573574435_3_alg».proof.Proof.Gen.ReferenceIdeal.Read
import proofs.«403593_j73074573574435_3_alg».proof.Proof.SageSpec

noncomputable section

namespace Sage

open Idealize.ShloMosaic

/-- The edge list: row 0 the destinations, row 1 the sources. -/
abbrev EdgeList : Shape := ⟨2, ![2, 800000]⟩

/-- The sum, per destination node, of the feature rows of its incoming edges' sources. -/
def neighSum (x : FVec Ideal NodeFeat .f32) (e : IVec EdgeList 32) : FVec Ideal NodeFeat .f32 :=
  Cert.ReferenceIdeal.Read.val_main_v19 (F := Ideal) x e

/-- The number of edges arriving at each node, as a float. -/
def inDegree (e : IVec EdgeList 32) : FVec Ideal NodeVec .f32 :=
  Cert.ReferenceIdeal.Read.val_main_v7 (F := Ideal) e

/-- The layer as a function of the six inputs. -/
def layer (x : FVec Ideal NodeFeat .f32) (e : IVec EdgeList 32) (Ws : FVec Ideal Weight .f32) (bs : FVec Ideal Bias .f32)
    (Wn : FVec Ideal Weight .f32) (bn : FVec Ideal Bias .f32) : FVec Ideal NodeFeat .f32 :=
  out x (neighSum x e) (inDegree e) Ws bs Wn bn

end Sage

end
-- ==== Proof.KernelArrays.lean ====
/-
  What the kernel's region finds in the arrays its windows stage.

  Before the region the program computes, on the host, the neighbour sums and the in-degrees (the shared chain),
  lays the in-degrees out as a column, transposes the two weight matrices and lays the two biases out as rows.
  Read at an entry: the column's entry (r, 0) is node r's in-degree; a transposed matrix's entry (k, q) is the
  matrix's entry (q, k); a bias row's entry (0, q) is the bias's entry q.
-/
import proofs.«403593_j73074573574435_3_alg».proof.Proof.Gen.KernelIdeal.Frame
import proofs.«403593_j73074573574435_3_alg».proof.Proof.SageHost
import Idealize.ShloMosaic.Lib.StableHlo.Run
import Idealize.ShloMosaic.Lib.Pipeline.Value
import Idealize.ShloMosaic.Lib.ValueIdx

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The six inputs as launched on core `c`. -/
abbrev xIn (c : Dev nD) : FVec Ideal Sage.NodeFeat .f32 := m ((c : Thread nD τ).loc main_arg0)
abbrev eIn (c : Dev nD) : IVec Sage.EdgeList 32 := m ((c : Thread nD τ).loc main_arg1)
abbrev wsIn (c : Dev nD) : FVec Ideal Sage.Weight .f32 := m ((c : Thread nD τ).loc main_arg2)
abbrev bsIn (c : Dev nD) : FVec Ideal Sage.Bias .f32 := m ((c : Thread nD τ).loc main_arg3)
abbrev wnIn (c : Dev nD) : FVec Ideal Sage.Weight .f32 := m ((c : Thread nD τ).loc main_arg4)
abbrev bnIn (c : Dev nD) : FVec Ideal Sage.Bias .f32 := m ((c : Thread nD τ).loc main_arg5)

set_option maxRecDepth 8192 in
set_option maxHeartbeats 2000000 in
/-- The second window's array holds the neighbour sums. -/
theorem neigh_arr (c : Dev nD) : (V m c main_v18 : S50000x64.Idx → EReal) = Sage.neighSum (xIn m c) (eIn m c) := by
  dsimp only [Gen.V, Gen.hostOps0]; after_results_simp <;> rfl

set_option maxRecDepth 8192 in
set_option maxHeartbeats 2000000 in
/-- The third window's array is the in-degrees laid out as a column: entry (r, 0) is node `r`'s in-degree. -/
theorem deg_at (c : Dev nD) (r : Fin 50000) :
    (V m c main_v8 : S50000x1.Idx → EReal) (ix2 r 0) = Sage.inDegree (eIn m c) (ix1 r) := by
  have e : (V m c main_v8 : S50000x1.Idx → EReal) = shapeCast S50000x1 (Sage.inDegree (eIn m c)) shapeCasts_S50000_S50000x1 := by
    dsimp only [Gen.V, Gen.hostOps0]; after_results_simp <;> rfl
  refine (congrFun e (ix2 r 0)).trans ?_
  exact shapeCast_apply (Sage.inDegree (eIn m c)) shapeCasts_S50000_S50000x1 (ix2 r 0) (ix1 r)
    (by rewrite [Shape.rowMajor_val_one, Shape.rowMajor_val_two]; show r.val = r.val * 1 + 0; omega)

set_option maxRecDepth 8192 in
set_option maxHeartbeats 2000000 in
/-- The fourth window's array is the self weights transposed: entry (k, q) is the weight (q, k). -/
theorem wsT_at (c : Dev nD) (k q : Fin 64) :
    (V m c main_v19 : S64x64.Idx → EReal) (ix2 k q) = wsIn m c (ix2 q k) := by
  have e : (V m c main_v19 : S64x64.Idx → EReal) = transpose S64x64 [1, 0] (wsIn m c) transposes_S64x64_S64x64_1_0 := by
    dsimp only [Gen.V, Gen.hostOps0]; after_results_simp <;> rfl
  refine (congrFun e (ix2 k q)).trans ?_
  exact transpose_apply [1, 0] (wsIn m c) transposes_S64x64_S64x64_1_0 (ix2 k q) (ix2 q k) (fun b => match b with
    | ⟨0, _⟩ => rfl
    | ⟨1, _⟩ => rfl)

set_option maxRecDepth 8192 in
set_option maxHeartbeats 2000000 in
/-- The sixth window's array is the neighbour weights transposed. -/
theorem wnT_at (c : Dev nD) (k q : Fin 64) :
    (V m c main_v20 : S64x64.Idx → EReal) (ix2 k q) = wnIn m c (ix2 q k) := by
  have e : (V m c main_v20 : S64x64.Idx → EReal) = transpose S64x64 [1, 0] (wnIn m c) transposes_S64x64_S64x64_1_0 := by
    dsimp only [Gen.V, Gen.hostOps0]; after_results_simp <;> rfl
  refine (congrFun e (ix2 k q)).trans ?_
  exact transpose_apply [1, 0] (wnIn m c) transposes_S64x64_S64x64_1_0 (ix2 k q) (ix2 q k) (fun b => match b with
    | ⟨0, _⟩ => rfl
    | ⟨1, _⟩ => rfl)

set_option maxRecDepth 8192 in
set_option maxHeartbeats 2000000 in
/-- The fifth window's array is the self bias laid out as a row: entry (0, q) is the bias's entry q. -/
theorem bs_at (c : Dev nD) (q : Fin 64) :
    (V m c main_v21 : S1x64.Idx → EReal) (ix2 0 q) = bsIn m c (ix1 q) := by
  have e : (V m c main_v21 : S1x64.Idx → EReal) = shapeCast S1x64 (bsIn m c) shapeCasts_S64_S1x64 := by
    dsimp only [Gen.V, Gen.hostOps0]; after_results_simp <;> rfl
  refine (congrFun e (ix2 0 q)).trans ?_
  exact shapeCast_apply (bsIn m c) shapeCasts_S64_S1x64 (ix2 0 q) (ix1 q)
    (by rewrite [Shape.rowMajor_val_one, Shape.rowMajor_val_two]; show q.val = 0 * 64 + q.val; omega)

set_option maxRecDepth 8192 in
set_option maxHeartbeats 2000000 in
/-- The seventh window's array is the neighbour bias laid out as a row. -/
theorem bn_at (c : Dev nD) (q : Fin 64) :
    (V m c main_v22 : S1x64.Idx → EReal) (ix2 0 q) = bnIn m c (ix1 q) := by
  have e : (V m c main_v22 : S1x64.Idx → EReal) = shapeCast S1x64 (bnIn m c) shapeCasts_S64_S1x64 := by
    dsimp only [Gen.V, Gen.hostOps0]; after_results_simp <;> rfl
  refine (congrFun e (ix2 0 q)).trans ?_
  exact shapeCast_apply (bnIn m c) shapeCasts_S64_S1x64 (ix2 0 q) (ix1 q)
    (by rewrite [Shape.rowMajor_val_one, Shape.rowMajor_val_two]; show q.val = 0 * 64 + q.val; omega)

end Cert.KernelIdeal.Arrays

end
-- ==== Proof.KernelBlocks.lean ====
/-
  From the ten blocks to the whole output array.

  The grid has ten points; point `t` works on nodes `5000·t … 5000·t + 4999`. The feature, neighbour-sum and
  degree windows move with the output window (block index `t` on the node axis), the two weight matrices and the
  two bias rows are one block each. So entry (p, q) of what point `t` writes back is the layer's output at node
  `5000·t + p`, column `q`; the ten blocks tile the 50000 nodes, hence the output array ends as the layer's output.
-/
import proofs.«403593_j73074573574435_3_alg».proof.Proof.Gen.KernelIdeal.Value
import proofs.«403593_j73074573574435_3_alg».proof.Proof.KernelBody
import proofs.«403593_j73074573574435_3_alg».proof.Proof.KernelArrays

set_option maxRecDepth 16384

noncomputable section

namespace Cert.KernelIdeal.Blocks

open Cert.KernelIdeal Cert.KernelIdeal.Gen Cert.KernelIdeal.Arrays Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The windows' block indices at each of the ten points: the three node-indexed inputs sit at the output's block on
    the node axis, every other block index is zero, and the output's node block is at most 9. -/
theorem block_indices : ∀ t : Fin cfg0.N,
      win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 9 ∧ win0_7.index t (1 : Fin 2) = 0 :=
  (by decide +kernel : ∀ t : Fin grid0.N, _)

/-- Every one of the ten node blocks is some point's. -/
theorem block_onto : ∀ b : Fin 10, ∃ t : Fin cfg0.N, win0_7.index t = ![b.val, 0] :=
  (by decide +kernel : ∀ b : Fin 10, ∃ t : Fin grid0.N, win0_7.index t = ![b.val, 0])

/-! ## A window's block is its array read through the block's rectangle

  Entry `y` of window `w`'s block at point `t` is the window's array at the rectangle's image of `y`. -/

theorem array0 (c : Dev nD) : V m c (Pipeline.arrRef spec0 0) = V m c main_arg0 := rfl
theorem read0 (c : Dev nD) (t : Fin cfg0.N) (y : S5000x64.Idx) :
    iblk m c 0 t y = V m c main_arg0 (((cfg0.win 0).blk t).view.emb y) := by
  unfold iblk
  rw [View.read_apply]
  exact (cast_eq _ _).trans (congrFun (array0 m c) _)

theorem array1 (c : Dev nD) : V m c (Pipeline.arrRef spec0 1) = V m c main_v18 := rfl
theorem read1 (c : Dev nD) (t : Fin cfg0.N) (y : S5000x64.Idx) :
    iblk m c 1 t y = V m c main_v18 (((cfg0.win 1).blk t).view.emb y) := by
  unfold iblk
  rw [View.read_apply]
  exact (cast_eq _ _).trans (congrFun (array1 m c) _)

theorem array2 (c : Dev nD) : V m c (Pipeline.arrRef spec0 2) = V m c main_v8 := rfl
theorem read2 (c : Dev nD) (t : Fin cfg0.N) (y : S5000x1.Idx) :
    iblk m c 2 t y = V m c main_v8 (((cfg0.win 2).blk t).view.emb y) := by
  unfold iblk
  rw [View.read_apply]
  exact (cast_eq _ _).trans (congrFun (array2 m c) _)

theorem array3 (c : Dev nD) : V m c (Pipeline.arrRef spec0 3) = V m c main_v19 := rfl
theorem read3 (c : Dev nD) (t : Fin cfg0.N) (y : S64x64.Idx) :
    iblk m c 3 t y = V m c main_v19 (((cfg0.win 3).blk t).view.emb y) := by
  unfold iblk
  rw [View.read_apply]
  exact (cast_eq _ _).trans (congrFun (array3 m c) _)

theorem array4 (c : Dev nD) : V m c (Pipeline.arrRef spec0 4) = V m c main_v21 := rfl
theorem read4 (c : Dev nD) (t : Fin cfg0.N) (y : S1x64.Idx) :
    iblk m c 4 t y = V m c main_v21 (((cfg0.win 4).blk t).view.emb y) := by
  unfold iblk
  rw [View.read_apply]
  exact (cast_eq _ _).trans (congrFun (array4 m c) _)

theorem array5 (c : Dev nD) : V m c (Pipeline.arrRef spec0 5) = V m c main_v20 := rfl
theorem read5 (c : Dev nD) (t : Fin cfg0.N) (y : S64x64.Idx) :
    iblk m c 5 t y = V m c main_v20 (((cfg0.win 5).blk t).view.emb y) := by
  unfold iblk
  rw [View.read_apply]
  exact (cast_eq _ _).trans (congrFun (array5 m c) _)

theorem array6 (c : Dev nD) : V m c (Pipeline.arrRef spec0 6) = V m c main_v22 := rfl
theorem read6 (c : Dev nD) (t : Fin cfg0.N) (y : S1x64.Idx) :
    iblk m c 6 t y = V m c main_v22 (((cfg0.win 6).blk t).view.emb y) := by
  unfold iblk
  rw [View.read_apply]
  exact (cast_eq _ _).trans (congrFun (array6 m c) _)

/-! ## Each window's block at a point, read from the inputs

  `r` is the node of row `p` of point `t`'s block: `r = 5000·(block of t) + p`. -/

/-- Features: row `p` of the block is node `r`'s row. -/
theorem blk_x (c : Dev nD) (t : Fin cfg0.N) (p : Fin 5000) (k : Fin 64) (r : Fin 50000)
    (hr : r.val = win0_7.index t (0 : Fin 2) * 5000 + p.val) :
    iblk m c 0 t (ix2 p k) = xIn m c (ix2 r k) := by
  have he : ((cfg0.win 0).blk t).view.emb (ix2 p k) = ix2 r k := by
    obtain ⟨e0, e1, -⟩ := block_indices t
    funext a; apply Fin.ext
    match a with
    | ⟨0, _⟩ => show win0_0.index t (0 : Fin 2) * 5000 + 1 * p.val = r.val; omega
    | ⟨1, _⟩ => show win0_0.index t (1 : Fin 2) * 64 + 1 * k.val = k.val; omega
  refine (read0 m c t (ix2 p k)).trans ?_
  rw [he, V_main_arg0]

/-- Neighbour sums: row `p` of the block is node `r`'s row. -/
theorem blk_neigh (c : Dev nD) (t : Fin cfg0.N) (p : Fin 5000) (k : Fin 64) (r : Fin 50000)
    (hr : r.val = win0_7.index t (0 : Fin 2) * 5000 + p.val) :
    iblk m c 1 t (ix2 p k) = Sage.neighSum (xIn m c) (eIn m c) (ix2 r k) := by
  have he : ((cfg0.win 1).blk t).view.emb (ix2 p k) = ix2 r k := by
    obtain ⟨-, -, e0, e1, -⟩ := block_indices t
    funext a; apply Fin.ext
    match a with
    | ⟨0, _⟩ => show win0_1.index t (0 : Fin 2) * 5000 + 1 * p.val = r.val; omega
    | ⟨1, _⟩ => show win0_1.index t (1 : Fin 2) * 64 + 1 * k.val = k.val; omega
  refine (read1 m c t (ix2 p k)).trans ?_
  rw [he]
  exact congrFun (neigh_arr m c) (ix2 r k)

/-- In-degrees: row `p` of the block's one column is node `r`'s in-degree. -/
theorem blk_deg (c : Dev nD) (t : Fin cfg0.N) (p : Fin 5000) (r : Fin 50000)
    (hr : r.val = win0_7.index t (0 : Fin 2) * 5000 + p.val) :
    iblk m c 2 t (ix2 p 0) = Sage.inDegree (eIn m c) (ix1 r) := by
  have he : ((cfg0.win 2).blk t).view.emb (ix2 p (0 : Fin 1)) = ix2 r (0 : Fin 1) := by
    obtain ⟨-, -, -, -, e0, e1, -⟩ := block_indices t
    funext a; apply Fin.ext
    match a with
    | ⟨0, _⟩ => show win0_2.index t (0 : Fin 2) * 5000 + 1 * p.val = r.val; omega
    | ⟨1, _⟩ => show win0_2.index t (1 : Fin 2) * 1 + 1 * 0 = 0; omega
  refine (read2 m c t (ix2 p (0 : Fin 1))).trans ?_
  rw [he]
  exact deg_at m c r

/-- The transposed self weights: the block is the whole matrix, entry (k, q) the weight (q, k). -/
theorem blk_wsT (c : Dev nD) (t : Fin cfg0.N) (k q : Fin 64) :
    iblk m c 3 t (ix2 k q) = wsIn m c (ix2 q k) := by
  have he : ((cfg0.win 3).blk t).view.emb (ix2 k q) = ix2 k q := by
    obtain ⟨-, -, -, -, -, -, e0, e1, -⟩ := block_indices t
    funext a; apply Fin.ext
    match a with
    | ⟨0, _⟩ => show win0_3.index t (0 : Fin 2) * 64 + 1 * k.val = k.val; omega
    | ⟨1, _⟩ => show win0_3.index t (1 : Fin 2) * 64 + 1 * q.val = q.val; omega
  refine (read3 m c t (ix2 k q)).trans ?_
  rw [he]
  exact wsT_at m c k q

/-- The self bias row. -/
theorem blk_bs (c : Dev nD) (t : Fin cfg0.N) (q : Fin 64) :
    iblk m c 4 t (ix2 0 q) = bsIn m c (ix1 q) := by
  have he : ((cfg0.win 4).blk t).view.emb (ix2 (0 : Fin 1) q) = ix2 (0 : Fin 1) q := by
    obtain ⟨-, -, -, -, -, -, -, -, e0, e1, -⟩ := block_indices t
    funext a; apply Fin.ext
    match a with
    | ⟨0, _⟩ => show win0_4.index t (0 : Fin 2) * 1 + 1 * 0 = 0; omega
    | ⟨1, _⟩ => show win0_4.index t (1 : Fin 2) * 64 + 1 * q.val = q.val; omega
  refine (read4 m c t (ix2 (0 : Fin 1) q)).trans ?_
  rw [he]
  exact bs_at m c q

/-- The transposed neighbour weights. -/
theorem blk_wnT (c : Dev nD) (t : Fin cfg0.N) (k q : Fin 64) :
    iblk m c 5 t (ix2 k q) = wnIn m c (ix2 q k) := by
  have he : ((cfg0.win 5).blk t).view.emb (ix2 k q) = ix2 k q := by
    obtain ⟨-, -, -, -, -, -, -, -, -, -, e0, e1, -⟩ := block_indices t
    funext a; apply Fin.ext
    match a with
    | ⟨0, _⟩ => show win0_5.index t (0 : Fin 2) * 64 + 1 * k.val = k.val; omega
    | ⟨1, _⟩ => show win0_5.index t (1 : Fin 2) * 64 + 1 * q.val = q.val; omega
  refine (read5 m c t (ix2 k q)).trans ?_
  rw [he]
  exact wnT_at m c k q

/-- The neighbour bias row. -/
theorem blk_bn (c : Dev nD) (t : Fin cfg0.N) (q : Fin 64) :
    iblk m c 6 t (ix2 0 q) = bnIn m c (ix1 q) := by
  have he : ((cfg0.win 6).blk t).view.emb (ix2 (0 : Fin 1) q) = ix2 (0 : Fin 1) q := by
    obtain ⟨-, -, -, -, -, -, -, -, -, -, -, -, e0, e1, -⟩ := block_indices t
    funext a; apply Fin.ext
    match a with
    | ⟨0, _⟩ => show win0_6.index t (0 : Fin 2) * 1 + 1 * 0 = 0; omega
    | ⟨1, _⟩ => show win0_6.index t (1 : Fin 2) * 64 + 1 * q.val = q.val; omega
  refine (read6 m c t (ix2 (0 : Fin 1) q)).trans ?_
  rw [he]
  exact bn_at m c q

/-! ## What a point writes back -/

/-- The layer's output of the inputs as launched on core `c`. -/
abbrev result (c : Dev nD) : FVec Ideal Sage.NodeFeat .f32 :=
  Sage.layer (xIn m c) (eIn m c) (wsIn m c) (bsIn m c) (wnIn m c) (bnIn m c)

/-- Point `t` writes back block `t` of the layer's output. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero origin]
  simp only [View.ld_unit_zero (S := S5000x1) origin, View.ld_unit_zero (S := S5000x64) origin,
    View.ld_unit_zero (S := S64x64) origin, View.ld_unit_zero (S := S1x64) origin]
  funext j
  obtain ⟨p, q, rfl⟩ : ∃ (p : Fin 5000) (q : Fin 64), j = ix2 p q := ⟨j 0, j 1, eq_ix2 j⟩
  obtain ⟨-, -, -, -, -, -, -, -, -, -, -, -, -, -, hle, hcol⟩ := block_indices t
  have hp := p.isLt
  obtain ⟨r, hr⟩ : ∃ r : Fin 50000, r.val = win0_7.index t (0 : Fin 2) * 5000 + p.val :=
    ⟨⟨win0_7.index t (0 : Fin 2) * 5000 + p.val, by omega⟩, rfl⟩
  have hemb : ((cfg0.win 7).blk t).view.emb (ix2 p q) = ix2 r q := by
    funext a; apply Fin.ext
    match a with
    | ⟨0, _⟩ => show win0_7.index t (0 : Fin 2) * 5000 + 1 * p.val = r.val; omega
    | ⟨1, _⟩ => show win0_7.index t (1 : Fin 2) * 64 + 1 * q.val = q.val; omega
  show k0_pay1 (F := Ideal) (iblk m c 2 t) (iblk m c 1 t) (iblk m c 0 t) (iblk m c 3 t) (iblk m c 4 t) (iblk m c 5 t) (iblk m c 6 t) (ix2 p q)
    = result m c (((cfg0.win 7).blk t).view.emb (ix2 p q))
  rw [hemb]
  refine (Body.stored_at (iblk m c 2 t) (iblk m c 1 t) (iblk m c 0 t) (iblk m c 3 t) (iblk m c 4 t) (iblk m c 5 t) (iblk m c 6 t) p q).trans ?_
  show _ = Sage.outAt (xIn m c) (Sage.neighSum (xIn m c) (eIn m c)) (Sage.inDegree (eIn m c)) (wsIn m c) (bsIn m c) (wnIn m c) (bnIn m c) r q
  unfold Sage.outAt Sage.meanNeigh
  rw [blk_bs m c t q, blk_bn m c t q, blk_deg m c t p r hr]
  refine congrArg (· + bnIn m c (ix1 q)) (congrArg₂ (· + ·) (congrArg (· + bsIn m c (ix1 q)) (Finset.sum_congr rfl fun k _ => ?_))
    (Finset.sum_congr rfl fun k _ => ?_))
  · rw [blk_x m c t p k r hr, blk_wsT m c t k q]
  · rw [blk_neigh m c t p k r hr, blk_wnT m c t k q]

/-! ## The cover -/

/-- An index of the array is in point `t`'s block iff each coordinate is in the block's range on its axis. -/
theorem mem_block (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v23).slice (win0_7.rect t)).set ↔ _
  rw [View.set_slice_whole, Rect.mem_set_unit]
  exact Iff.rfl

/-- Node `n` lies in the block of the point whose block index is `n / 5000`. -/
theorem covered (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  obtain ⟨t, ht⟩ := block_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_block]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- The output array after the run is the layer's output. -/
theorem final (c : Dev nD) : (dats m 0 c).arrAt 7 cfg0.N = result m c :=
  (dats m 0 c).arrAt_eq_of_cover 7 (result m c) (fun t _ => flushed_eq m c t) covered

/-! ## The run -/

/-- Every weakly fair execution of the kernel's program ends with the result array at the layer's output of the
    inputs, and the inputs unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.RefLayer.lean ====
/-
  The reference's result is the layer of its inputs.

  The reference divides the neighbour sums by the in-degrees floored at one (a column broadcast along the 64
  features), multiplies the features and the normalised sums by the transposed weight matrices, and adds the two
  biases, each broadcast along the nodes. Read at node `p`, column `q`, stage by stage, that is the layer's
  output there; a transposed matrix's entry (k, q) is the matrix's entry (q, k).
-/
import proofs.«403593_j73074573574435_3_alg».proof.Proof.Gen.ReferenceIdeal.Read
import proofs.«403593_j73074573574435_3_alg».proof.Proof.SageHost

noncomputable section

namespace Cert.ReferenceIdeal.Layer

open Cert.ReferenceIdeal Cert.ReferenceIdeal.Gen Cert.ReferenceIdeal.Read Idealize.ShloMosaic Idealize.ShloMosaic.ValueIdx

variable (x0 : (⟨S50000x64, .f32⟩ : BufTy).Contents (Elt Ideal)) (x1 : (⟨S2x800000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))

/-- The self bias broadcast along the nodes. -/
theorem bias_self_at (p : Fin 50000) (q : Fin 64) : val_main_v26 (F := Ideal) x3 (ix2 p q) = x3 (ix1 q) := by
  rw [val_main_v26_apply, val_main_v25_apply]
  exact congrArg x3 (funext fun a => Fin.ext (by match a with | ⟨0, _⟩ => rfl))

/-- The neighbour bias broadcast along the nodes. -/
theorem bias_neigh_at (p : Fin 50000) (q : Fin 64) : val_main_v32 (F := Ideal) x5 (ix2 p q) = x5 (ix1 q) := by
  rw [val_main_v32_apply, val_main_v31_apply]
  exact congrArg x5 (funext fun a => Fin.ext (by match a with | ⟨0, _⟩ => rfl))

/-- The transposed self weights. -/
theorem wsT_at (k q : Fin 64) : val_main_v23 (F := Ideal) x2 (ix2 k q) = x2 (ix2 q k) := by
  rw [val_main_v23_apply]
  exact congrArg x2 (funext fun a => Fin.ext (by match a with | ⟨0, _⟩ => rfl | ⟨1, _⟩ => rfl))

/-- The transposed neighbour weights. -/
theorem wnT_at (k q : Fin 64) : val_main_v28 (F := Ideal) x4 (ix2 k q) = x4 (ix2 q k) := by
  rw [val_main_v28_apply]
  exact congrArg x4 (funext fun a => Fin.ext (by match a with | ⟨0, _⟩ => rfl | ⟨1, _⟩ => rfl))

/-- The divisor at (p, k): node `p`'s in-degree floored at one, whatever the column. -/
theorem divisor_at (p : Fin 50000) (k : Fin 64) :
    val_main_v21 (F := Ideal) x1 (ix2 p k) = max (Sage.inDegree x1 (ix1 p)) Sage.one := by
  rw [val_main_v21_apply, val_main_v20_apply, val_main_v9_apply, val_main_v8_apply, val_main_cst_1_apply]
  have hi : idx_main_v20 (idx_main_v21 (ix2 p k)) = ix1 p := funext fun a => Fin.ext (by match a with | ⟨0, _⟩ => rfl)
  rw [hi]
  rfl

/-- The features times the transposed self weights. -/
theorem self_dot_at (p : Fin 50000) (q : Fin 64) :
    val_main_v24 (F := Ideal) x0 x2 (ix2 p q) = ∑ k : Fin 64, x0 (ix2 p k) * x2 (ix2 q k) := by
  rw [val_main_v24_apply]
  refine Finset.sum_congr rfl fun k _ => ?_
  have hl : lidx_main_v24 (ix2 p q) k = ix2 p k := funext fun a => Fin.ext (by match a with | ⟨0, _⟩ => rfl | ⟨1, _⟩ => rfl)
  have hr : ridx_main_v24 (ix2 p q) k = ix2 k q := funext fun a => Fin.ext (by match a with | ⟨0, _⟩ => rfl | ⟨1, _⟩ => rfl)
  rw [hl, hr, wsT_at]

/-- The normalised neighbour sums times the transposed neighbour weights. -/
theorem neigh_dot_at (p : Fin 50000) (q : Fin 64) :
    val_main_v29 (F := Ideal) x0 x1 x4 (ix2 p q)
      = ∑ k : Fin 64, Sage.meanNeigh (Sage.neighSum x0 x1) (Sage.inDegree x1) p k * x4 (ix2 q k) := by
  rw [val_main_v29_apply]
  refine Finset.sum_congr rfl fun k _ => ?_
  have hl : lidx_main_v29 (ix2 p q) k = ix2 p k := funext fun a => Fin.ext (by match a with | ⟨0, _⟩ => rfl | ⟨1, _⟩ => rfl)
  have hr : ridx_main_v29 (ix2 p q) k = ix2 k q := funext fun a => Fin.ext (by match a with | ⟨0, _⟩ => rfl | ⟨1, _⟩ => rfl)
  rw [hl, hr, wnT_at, val_main_v22_apply, divisor_at]
  rfl

/-- The reference's result array is the layer of its six inputs. -/
theorem result_eq : val_main_v33 (F := Ideal) x0 x1 x2 x3 x4 x5 = Sage.layer x0 x1 x2 x3 x4 x5 := by
  funext i
  obtain ⟨p, q, rfl⟩ : ∃ (p : Fin 50000) (q : Fin 64), i = ix2 p q := ⟨i 0, i 1, eq_ix2 i⟩
  rw [val_main_v33_apply, val_main_v30_apply, val_main_v27_apply, self_dot_at, neigh_dot_at, bias_self_at, bias_neigh_at]
  rfl

end Cert.ReferenceIdeal.Layer

end
-- ==== Proof.lean ====
/-
  A graph layer with mean aggregation of neighbours: for node `p` and output column `q`

      out p q = ((Σ k, x p k · W_self q k + b_self q) + Σ k, (agg p k / max (deg p) 1) · W_neigh q k) + b_neigh q ,

  where `deg p` counts the edges arriving at `p` and `agg p` sums the feature rows of their sources.

  Both programs compute `deg` and `agg` by the same host operations on the edge list (a gather of the source rows,
  a scatter-add into the destination rows); the claim never opens them. They differ in where the rest happens. The
  kernel works on ten blocks of 5000 nodes: it floors the degree column at one, divides, multiplies the two blocks by
  the transposed weight matrices and adds the two bias rows. The reference does the same on the whole arrays. On the
  extended reals a product of a block with a 64 × 64 matrix is, entry by entry, the sum over the 64 contracted
  columns, a division is the same function in a kernel and on the host, and the three additions are grouped alike, so
  the two results agree entry by entry with no use of the inputs' finiteness.

  The modules: `SageSpec` states the layer; `SageHost` names `deg` and `agg`; `KernelBody` reads the body's
  stored value at an entry; `KernelArrays` says what the region finds in each window's array; `KernelBlocks` goes
  from the ten blocks to the whole array; `RefLayer` reads the reference's result. The three frames are the
  generated ones (the reference's is its generated run with the result dropped), and the idealization rewrote nothing.
-/
import proofs.«403593_j73074573574435_3_alg».proof.Defs
import proofs.«403593_j73074573574435_3_alg».proof.Proof.Gen.Kernel
import proofs.«403593_j73074573574435_3_alg».proof.Proof.Gen.Kernel.Skeleton
import proofs.«403593_j73074573574435_3_alg».proof.Proof.Gen.Kernel.Launch
import proofs.«403593_j73074573574435_3_alg».proof.Proof.Gen.Kernel.Points
import proofs.«403593_j73074573574435_3_alg».proof.Proof.Gen.Kernel.Frame
import proofs.«403593_j73074573574435_3_alg».proof.Proof.Gen.KernelIdeal
import proofs.«403593_j73074573574435_3_alg».proof.Proof.Gen.KernelIdeal.Skeleton
import proofs.«403593_j73074573574435_3_alg».proof.Proof.Gen.KernelIdeal.Launch
import proofs.«403593_j73074573574435_3_alg».proof.Proof.Gen.KernelIdeal.Points
import proofs.«403593_j73074573574435_3_alg».proof.Proof.Gen.KernelIdeal.Frame
import proofs.«403593_j73074573574435_3_alg».proof.Proof.Gen.ReferenceIdeal
import proofs.«403593_j73074573574435_3_alg».proof.Proof.Gen.Pre_finite_inputs
import proofs.«403593_j73074573574435_3_alg».proof.Proof.Gen.KernelIdeal.Value
import proofs.«403593_j73074573574435_3_alg».proof.Proof.Gen.ReferenceIdeal.Run
import proofs.«403593_j73074573574435_3_alg».proof.Proof.Gen.ReferenceIdeal.Read
import proofs.«403593_j73074573574435_3_alg».proof.Proof.KernelBlocks
import proofs.«403593_j73074573574435_3_alg».proof.Proof.RefLayer
import Idealize.ShloMosaic.Adequacy
import Idealize.ShloMosaic.Init

noncomputable section

namespace Cert.Proof

open Idealize.ShloMosaic Idealize.SL.Sem

/-- The kernel's program as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the six inputs, the kernel's result array and the reference's both end at the layer
    of those inputs. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.Layer.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
